-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The Gaussian (radial basis function) kernel matrix of two families of 8192 points in dimension 256, as ONE function of
  the two point arrays, entry by entry, on the extended reals:

      K[p, q] = exp ( -1 · max ( (‖x_p‖² + ‖y_q‖²) - 2 · ⟨x_p, y_q⟩ , 0 ) )

  with ‖x_p‖² the zero word plus the sum of the squares of point p's coordinates and ⟨x_p, y_q⟩ the sum over the 256
  coordinates of the products. Both programs compute exactly this expression (the squared distance through its
  expansion, clamped at zero, then the exponential), so no algebraic law beyond the shape of the expression is needed,
  and the float literals stay as the words both programs print.
-/
import Idealize.ShloMosaic.PureOps.Ideal
import Idealize.ShloMosaic.Lib.ValueIdx

noncomputable section

open scoped BigOperators

namespace Cert.Rbf

open Idealize.ShloMosaic Idealize.ShloMosaic.ValueIdx

/-- A family of 8192 points of dimension 256, one point per row. -/
abbrev Pts : Shape := ⟨2, ![8192, 256]⟩
/-- One entry per pair (point of the first family, point of the second). -/
abbrev Pairs : Shape := ⟨2, ![8192, 8192]⟩

/-- The squared Euclidean norm of point `r`: the sum of its coordinates' squares onto the zero word. -/
def sqNorm (x : Pts.Idx → EReal) (r : Fin 8192) : EReal :=
  Ideal.ofBits .f32 0x00000000#32 + ∑ k : Fin 256, x (ix2 r k) * x (ix2 r k)

/-- The inner product of point `p` of `x` with point `q` of `y`. -/
def dot (x y : Pts.Idx → EReal) (p q : Fin 8192) : EReal :=
  ∑ k : Fin 256, x (ix2 p k) * y (ix2 q k)

/-- What the exponential is applied to, from the two squared norms and the inner product: minus the squared distance
    `(a + b) - 2·d`, clamped below at zero. The words are -1.0, 2.0 and 0.0. -/
def negClampedDist (a b d : EReal) : EReal :=
  Ideal.ofBits .f32 0xBF800000#32 * max ((a + b) - Ideal.ofBits .f32 0x40000000#32 * d) (Ideal.ofBits .f32 0x00000000#32)

/-- The kernel matrix: entry `(p, q)` is the exponential of minus the clamped squared distance of `x_p` and `y_q`. -/
def rbf (x y : Pts.Idx → EReal) : Pairs.Idx → EReal := fun i =>
  Ideal.exp (negClampedDist (sqNorm x (i 0)) (sqNorm y (i 1)) (dot x y (i 0) (i 1)))

end Cert.Rbf

end
-- ==== Proof.RefIsSpec.lean ====
/-
  The reference's result, read one operation at a time, is the specification's kernel matrix: at entry (p, q) the host
  program forms the row sums of squares of x at p and of y at q (each broadcast along the other axis), their sum minus
  twice the contraction of row p of x with row q of y over the 256 coordinates, the maximum with zero, the product with
  -1, and the exponential — the specification's expression, operand for operand.
-/
import proofs.«173270_j65481071400600_1_alg».proof.Proof.Gen.ReferenceIdeal.Read
import proofs.«173270_j65481071400600_1_alg».proof.Proof.Spec

noncomputable section

open scoped BigOperators

namespace Cert.Rbf.Ref

open Cert.ReferenceIdeal Cert.ReferenceIdeal.Gen Cert.ReferenceIdeal.Read
open Idealize.ShloMosaic Idealize.ShloMosaic.ValueIdx Cert.Rbf

/-- The host's last stage at the ideal values is the kernel matrix of its two arguments. -/
theorem result_eq (x y : Pts.Idx → EReal) : val_main_v17 (F := Ideal) x y = rbf x y := by
  funext i
  -- the row of x the first sum of squares reads, the row of y the second reads, and the two rows the contraction reads
  have ex : ∀ k : Fin 256, idx_main_v1 (idx_main_v5 (idx_main_v7 i)) k = ix2 (i 0) k := fun k =>
    funext fun a => Fin.ext (by match a with | ⟨0, _⟩ => rfl | ⟨1, _⟩ => rfl)
  have ey : ∀ k : Fin 256, idx_main_v3 (idx_main_v6 (idx_main_v8 i)) k = ix2 (i 1) k := fun k =>
    funext fun a => Fin.ext (by match a with | ⟨0, _⟩ => rfl | ⟨1, _⟩ => rfl)
  have el : ∀ k : Fin 256, lidx_main_v4 i k = ix2 (i 0) k := fun k =>
    funext fun a => Fin.ext (by match a with | ⟨0, _⟩ => rfl | ⟨1, _⟩ => rfl)
  have er : ∀ k : Fin 256, ridx_main_v4 i k = ix2 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v12_apply, val_main_v13_apply, val_main_cst_2_apply, val_main_v9_apply, val_main_v11_apply,
    val_main_v10_apply, val_main_cst_1_apply, val_main_v7_apply, val_main_v5_apply, val_main_v1_apply,
    val_main_v8_apply, val_main_v6_apply, val_main_v3_apply, val_main_v4_apply, val_main_cst_apply, val_main_cst_0_apply]
  simp only [val_main_v0_apply, val_main_v2_apply, ex, ey, el, er, Ideal.hostUnary_exp_def, Ideal.mulf_def, Ideal.addf_def,
    Ideal.subf_def, Ideal.maximumf_def, Ideal.ofBits_def]
  rfl

end Cert.Rbf.Ref

end
-- ==== Proof.Body.lean ====
/-
  One grid point's body, read at an entry of its 1024 × 1024 output block. From the four loaded blocks — 1024 points of x,
  1024 points of y, the column of squared norms of those x points and the row of squared norms of those y points — entry
  (p, q) is the exponential of minus the clamped squared distance built from the column's entry p, the row's entry q and the
  inner product of x point p with y point q. The inner product is the matrix unit's contraction into a zero accumulator of
  the x block with the TRANSPOSED y block: over the one contracted axis it is the sum, over the 256 coordinates, of x at
  (p, k) times the transposed block at (k, q), which is y at (q, k). The narrowing of both blocks to bfloat16 changes
  nothing on the extended reals.
-/
import proofs.«173270_j65481071400600_1_alg».proof.Proof.Gen.KernelIdeal.Skeleton
import proofs.«173270_j65481071400600_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Body

open Cert.KernelIdeal Cert.KernelIdeal.Gen
open Idealize.ShloMosaic Idealize.ShloMosaic.ValueIdx Cert.Rbf

/-! ## The contraction's operand indices, axis by axis -/

/-- The left operand's row is the result's row. -/
theorem lhs_gram_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- The left operand's column is the contraction position. -/
theorem lhs_gram_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's row is the contraction position. -/
theorem rhs_gram_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand's column is the result's column. -/
theorem rhs_gram_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-! ## The three pieces that are not entry-by-entry -/

/-- The contraction of a block of points with the transpose of another, into zero: entry (p, q) is the inner product of
    point p of the first with point q of the second. -/
theorem gram_apply (a b : FVec Ideal S1024x256 .bf16) (p q : Fin 1024) :
    matmul dot_S1024x256_S256x1024_S1024x1024_1_0_0_1_n_n none a
        (transpose S256x1024 [1, 0] b transposes_S1024x256_p1_0_S256x1024) (constant S1024x1024 .f32 0x00000000#32) (ix2 p q)
      = ∑ k : Fin 256, a (ix2 p k) * b (ix2 q k) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun ax => Fin.ext (by
    match ax with
    | ⟨0, _⟩ => exact lhs_gram_0 _ _
    | ⟨1, _⟩ => exact (lhs_gram_1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun ax => Fin.ext (by
    match ax with
    | ⟨0, _⟩ => exact (rhs_gram_0 _ _).trans hk
    | ⟨1, _⟩ => exact rhs_gram_1 _ _)
  rw [el, er, transpose_ix2_apply]

/-- A column of 1024 entries spread over 1024 columns: entry (p, q) is the column's entry p. -/
theorem col_apply (v : FVec Ideal S1024x1 .f32) (p q : Fin 1024) :
    broadcastTo S1024x1024 (shapeCast S1024x1 v shapeCasts_S1024x1_S1024x1) broadcasts_S1024x1_S1024x1024 (ix2 p q)
      = v (ix2 p (0 : Fin 1)) := by
  rw [shapeCast_self]
  refine broadcastTo_apply v _ (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-- A row of 1024 entries spread over 1024 rows: entry (p, q) is the row's entry q. -/
theorem row_apply (v : FVec Ideal S1x1024 .f32) (p q : Fin 1024) :
    broadcastTo S1024x1024 (shapeCast S1x1024 v shapeCasts_S1x1024_S1x1024) broadcasts_S1x1024_S1024x1024 (ix2 p q)
      = v (ix2 (0 : Fin 1) q) := by
  rw [shapeCast_self]
  exact broadcastTo_1b_ab_apply v _ p q

/-! ## The body's stored value at an entry -/

/-- The exponential of a block, read at an entry. -/
theorem exp_apply {s : Shape} {φ : FTy} (a : FVec Ideal s φ) (i : s.Idx) : exp a i = Ideal.exp (a i) := rfl

/-- The body's stored value as one expression of the four loaded blocks: the exponential of -1 times the maximum with zero
    of (column + row) minus twice the contraction. -/
theorem pay_eq (x0 x1 : Vec Ideal S1024x256 .f32) (x2 : Vec Ideal S1024x1 .f32) (x3 : Vec Ideal S1x1024 .f32) :
    k0_pay1 (F := Ideal) x0 x1 x2 x3
      = exp (mulf (broadcast S1024x1024 (Scalar.ofBits (F := Ideal) .f32 0xBF800000#32))
          (maximumf (subf (addf
              (broadcastTo S1024x1024 (shapeCast S1024x1 x2 shapeCasts_S1024x1_S1024x1) broadcasts_S1024x1_S1024x1024)
              (broadcastTo S1024x1024 (shapeCast S1x1024 x3 shapeCasts_S1x1024_S1x1024) broadcasts_S1x1024_S1024x1024))
            (mulf (broadcast S1024x1024 (Scalar.ofBits (F := Ideal) .f32 0x40000000#32))
              (matmul dot_S1024x256_S256x1024_S1024x1024_1_0_0_1_n_n none (truncf .bf16 x0 bitsLt_bf16_f32)
                (transpose S256x1024 [1, 0] (truncf .bf16 x1 bitsLt_bf16_f32) transposes_S1024x256_p1_0_S256x1024)
                (constant S1024x1024 .f32 0x00000000#32))))
            (broadcast S1024x1024 (Scalar.ofBits (F := Ideal) .f32 0x00000000#32)))) := rfl

/-- Entry (p, q) of what the body stores: the exponential of minus the clamped squared distance, from the loaded column
    at p, the loaded row at q and the inner product of the loaded points p and q. -/
theorem pay_apply (x0 x1 : Vec Ideal S1024x256 .f32) (x2 : Vec Ideal S1024x1 .f32) (x3 : Vec Ideal S1x1024 .f32) (p q : Fin 1024) :
    k0_pay1 (F := Ideal) x0 x1 x2 x3 (ix2 p q)
      = Ideal.exp (negClampedDist (x2 (ix2 p (0 : Fin 1))) (x3 (ix2 (0 : Fin 1) q)) (∑ k : Fin 256, x0 (ix2 p k) * x1 (ix2 q k))) := by
  rw [pay_eq, exp_apply, mulf_apply, maximumf_apply, subf_apply, addf_apply, mulf_apply, broadcast_apply, broadcast_apply,
    broadcast_apply, col_apply, row_apply, gram_apply]
  unfold negClampedDist
  rfl

end Cert.Rbf.Body

end
-- ==== Proof.Norms.lean ====
/-
  The two small arrays the host prepares before the grid runs, read at an index. The column array (8192 × 1) holds at row r
  the squared norm of point r of x: the row sum of the squares, broadcast into a unit second axis. The row array (1 × 8192)
  holds at column r the squared norm of point r of y: the same column for y, transposed. Both are the specification's
  `sqNorm` of the argument arrays, which no host operation overwrites.
-/
import proofs.«173270_j65481071400600_1_alg».proof.Proof.Gen.KernelIdeal.Frame
import proofs.«173270_j65481071400600_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Rbf.Norms

open Cert.KernelIdeal Cert.KernelIdeal.Gen
open Idealize.ShloMosaic Idealize.ShloMosaic.TcCoe Idealize.SL.Sem Idealize.ShloMosaic.StableHlo
open Idealize.ShloMosaic.ValueIdx Cert.Rbf

/-- The host's sum over the coordinate axis of a point array's squares, at point r, is the squared norm of point r. -/
theorem rowSq_apply (x : FVec Ideal S8192x256 .f32) (r : Fin 8192) :
    Host.reduceAdd (mulf x x) (constant S_ .f32 0x00000000#32) reducesTo_S8192x256_S8192_d1 h_S_ (ix1 r) = sqNorm x r := by
  simp only [Host.reduceAdd, Ideal.hostReduceAdd_def]
  rw [Ideal.hostReduceAdd_single reducesTo_S8192x256_S8192_d1 (by decide)]
  unfold sqNorm
  refine congrArg₂ (· + ·) rfl (Finset.sum_congr rfl fun k _ => ?_)
  exact congrArg (mulf x x) (funext fun a => Fin.ext (by match a with | ⟨0, _⟩ => rfl | ⟨1, _⟩ => rfl))

/-- The squared norms as a column: row r of the 8192 × 1 array. -/
theorem col_apply (x : FVec Ideal S8192x256 .f32) (j : S8192x1.Idx) :
    broadcastInDim S8192x1 ![0] bcast_S8192_S8192x1_0
        (Host.reduceAdd (mulf x x) (constant S_ .f32 0x00000000#32) reducesTo_S8192x256_S8192_d1 h_S_) j
      = sqNorm x (j 0) := by
  rw [broadcastInDim_apply _ bcast_S8192_S8192x1_0 _ j (ix1 (j 0)) (fun a => match a with
    | ⟨0, _⟩ => by show (j 0).val = if (8192 : Nat) = 1 then 0 else (j 0).val; rw [if_neg (by decide)])]
  exact rowSq_apply x (j 0)

/-- The squared norms as a row: column r of the 1 × 8192 array, the column array transposed. -/
theorem row_apply (y : FVec Ideal S8192x256 .f32) (j : S1x8192.Idx) :
    transpose S1x8192 [1, 0] (broadcastInDim S8192x1 ![0] bcast_S8192_S8192x1_0
        (Host.reduceAdd (mulf y y) (constant S_ .f32 0x00000000#32) reducesTo_S8192x256_S8192_d1 h_S_)) transposes_S8192x1_S1x8192_1_0 j
      = sqNorm y (j 1) := by
  obtain ⟨a, b, rfl⟩ : ∃ (a : Fin 1) (b : Fin 8192), j = ix2 a b := ⟨j 0, j 1, eq_ix2 j⟩
  rw [transpose_ix2_apply]
  exact col_apply y (ix2 b a)

variable (m : (ℓ : Loc nD τ sig) → Buf (Elt Ideal) ℓ)

/-- What the grid finds in the column array: the squared norms of the points of the first argument. -/
theorem V_col (c : Dev nD) (j : S8192x1.Idx) :
    (V m c main_v2 : S8192x1.Idx → EReal) j = sqNorm (m ((c : Thread nD τ).loc main_arg0)) (j 0) := by
  have e : (V m c main_v2 : S8192x1.Idx → EReal) = broadcastInDim S8192x1 ![0] bcast_S8192_S8192x1_0
      (Host.reduceAdd (mulf (m ((c : Thread nD τ).loc main_arg0)) (m ((c : Thread nD τ).loc main_arg0))) (constant (F := Ideal) S_ .f32 0x00000000#32) reducesTo_S8192x256_S8192_d1 h_S_) := by
    dsimp only [V, hostOps0]; after_results
  rw [e]
  exact col_apply _ j

/-- What the grid finds in the row array: the squared norms of the points of the second argument. -/
theorem V_row (c : Dev nD) (j : S1x8192.Idx) :
    (V m c main_v6 : S1x8192.Idx → EReal) j = sqNorm (m ((c : Thread nD τ).loc main_arg1)) (j 1) := by
  have e : (V m c main_v6 : S1x8192.Idx → EReal) = transpose S1x8192 [1, 0] (broadcastInDim S8192x1 ![0] bcast_S8192_S8192x1_0
      (Host.reduceAdd (mulf (m ((c : Thread nD τ).loc main_arg1)) (m ((c : Thread nD τ).loc main_arg1))) (constant (F := Ideal) S_ .f32 0x00000000#32) reducesTo_S8192x256_S8192_d1 h_S_)) transposes_S8192x1_S1x8192_1_0 := by
    dsimp only [V, hostOps0]; after_results
  rw [e]
  exact row_apply _ j

end Cert.Rbf.Norms

end
-- ==== Proof.Blocks.lean ====
/-
  From one grid point's block to the whole kernel matrix. The grid is 8 × 8; point (a, b) loads points 1024a … 1024a + 1023
  of x, points 1024b … 1024b + 1023 of y, rows 1024a … of the column of squared norms of x and columns 1024b … of the row of
  squared norms of y, and writes block (a, b) of the 8192 × 8192 result. So entry (p, q) of the block it writes is the
  specification's entry (1024a + p, 1024b + q): the loaded column entry is ‖x_{1024a+p}‖², the loaded row entry
  ‖y_{1024b+q}‖², and the loaded points' inner product ⟨x_{1024a+p}, y_{1024b+q}⟩. The 64 blocks tile the result
  (entry (P, Q) lies in block (P / 1024, Q / 1024)), so after the run the result array is the specification's matrix.
-/
import proofs.«173270_j65481071400600_1_alg».proof.Proof.Gen.KernelIdeal.Value
import proofs.«173270_j65481071400600_1_alg».proof.Proof.Body
import proofs.«173270_j65481071400600_1_alg».proof.Proof.Norms
import Idealize.ShloMosaic.Lib.Pipeline.Value
import Idealize.ShloMosaic.Lib.Tactic

noncomputable section

open scoped BigOperators

namespace Cert.Rbf.Blocks

open Cert.KernelIdeal Cert.KernelIdeal.Gen
open Idealize.ShloMosaic Idealize.ShloMosaic.TcCoe Idealize.SL.Sem
open Idealize.ShloMosaic.Pipeline (Dat)
open Idealize.ShloMosaic.ValueIdx Cert.Rbf

variable (m : (ℓ : Loc nD τ sig) → Buf (Elt Ideal) ℓ) (ρ : Dev nD → PrngReg)

theorem hz : (![0, 0] : Fin 2 → Nat) = fun _ => 0 := funext fun a => by fin_cases a <;> rfl

/-! ## Which blocks a point touches -/

/-- The index maps, decided over the 64 points: the x block and the column block follow the output block's row index, the
    y block and the row block its column index, and both output block indices are below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 output blocks is some point's. -/
theorem idx_onto : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-! ## The four loaded blocks, as entries of the arguments -/

/-- The loaded x block: its point p is point (output block row) · 1024 + p of the first argument. -/
theorem xblk_apply (c : Dev nD) (t : Fin cfg0.N) (y : S1024x256.Idx) (i : S8192x256.Idx)
    (h0 : (i 0).val = win0_4.index t (0 : Fin 2) * 1024 + (y 0).val) (h1 : (i 1).val = (y 1).val) :
    (iblk m c 0 t : Vec Ideal S1024x256 .f32) y = (m ((c : Thread nD τ).loc main_arg0) : S8192x256.Idx → EReal) i := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 256 + 1 * (y 1).val = (i 1).val; omega

/-- The loaded y block: its point q is point (output block column) · 1024 + q of the second argument. -/
theorem yblk_apply (c : Dev nD) (t : Fin cfg0.N) (y : S1024x256.Idx) (i : S8192x256.Idx)
    (h0 : (i 0).val = win0_4.index t (1 : Fin 2) * 1024 + (y 0).val) (h1 : (i 1).val = (y 1).val) :
    (iblk m c 1 t : Vec Ideal S1024x256 .f32) y = (m ((c : Thread nD τ).loc main_arg1) : S8192x256.Idx → EReal) i := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-- The loaded column block: its row p is the squared norm of point (output block row) · 1024 + p of the first argument. -/
theorem colblk_apply (c : Dev nD) (t : Fin cfg0.N) (y : S1024x1.Idx) (P : Fin 8192)
    (h : P.val = win0_4.index t (0 : Fin 2) * 1024 + (y 0).val) :
    (iblk m c 2 t : Vec Ideal S1024x1 .f32) y = sqNorm (m ((c : Thread nD τ).loc main_arg0)) P := by
  obtain ⟨-, -, -, -, e0, -⟩ := idx_facts t
  unfold iblk
  rw [View.read_apply]
  show V m c main_v2 _ = _
  rw [Norms.V_col]
  refine congrArg _ (Fin.ext ?_)
  show win0_2.index t (0 : Fin 2) * 1024 + 1 * (y 0).val = P.val
  omega

/-- The loaded row block: its column q is the squared norm of point (output block column) · 1024 + q of the second argument. -/
theorem rowblk_apply (c : Dev nD) (t : Fin cfg0.N) (y : S1x1024.Idx) (Q : Fin 8192)
    (h : Q.val = win0_4.index t (1 : Fin 2) * 1024 + (y 1).val) :
    (iblk m c 3 t : Vec Ideal S1x1024 .f32) y = sqNorm (m ((c : Thread nD τ).loc main_arg1)) Q := by
  obtain ⟨-, -, -, -, -, -, -, e1, -⟩ := idx_facts t
  unfold iblk
  rw [View.read_apply]
  show V m c main_v6 _ = _
  rw [Norms.V_row]
  refine congrArg _ (Fin.ext ?_)
  show win0_3.index t (1 : Fin 2) * 1024 + 1 * (y 1).val = Q.val
  omega

/-! ## What a point writes back -/

/-- One entry of a point's result, over blocks of the literal shapes: if the loaded points p and q are points P of X and Q of
    Y, and the loaded column and row entries their squared norms, the stored entry (p, q) is the kernel matrix's entry (P, Q). -/
theorem entry_eq (X Y : Pts.Idx → EReal) (x0 x1 : Vec Ideal S1024x256 .f32) (x2 : Vec Ideal S1024x1 .f32) (x3 : Vec Ideal S1x1024 .f32)
    (j : S1024x1024.Idx) (i : S8192x8192.Idx)
    (h0 : ∀ k : Fin 256, x0 (ix2 (j 0) k) = X (ix2 (i 0) k))
    (h1 : ∀ k : Fin 256, x1 (ix2 (j 1) k) = Y (ix2 (i 1) k))
    (h2 : x2 (ix2 (j 0) (0 : Fin 1)) = sqNorm X (i 0))
    (h3 : x3 (ix2 (0 : Fin 1) (j 1)) = sqNorm Y (i 1)) :
    k0_pay1 (F := Ideal) x0 x1 x2 x3 j = rbf X Y i := by
  obtain ⟨p, q, rfl⟩ : ∃ (p q : Fin 1024), j = ix2 p q := ⟨j 0, j 1, eq_ix2 j⟩
  rw [Body.pay_apply]
  unfold rbf dot
  rw [← h2, ← h3]
  simp only [← h0, ← h1]

/-- WHAT POINT `t` WRITES BACK is block `t` of the kernel matrix of the two arguments. -/
theorem flushed_eq (c : Dev nD) (t : Fin cfg0.N) :
    (dats m 0 c).flushed 4 t = ((cfg0.win 4).blk t).view.read (Elt Ideal)
      (rbf (m ((c : Thread nD τ).loc main_arg0)) (m ((c : Thread nD τ).loc main_arg1))) := by
  rw [Cert.KernelIdeal.Value.flushed4]
  unfold out0_4
  rw [View.canon_unit_zero hz]
  simp only [View.ld_unit_zero (S := S1024x256) hz, View.ld_unit_zero (S := S1024x1) hz, View.ld_unit_zero (S := S1x1024) hz]
  funext j
  show k0_pay1 (F := Ideal) (iblk m c 0 t) (iblk m c 1 t) (iblk m c 2 t) (iblk m c 3 t) j
    = rbf (m ((c : Thread nD τ).loc main_arg0)) (m ((c : Thread nD τ).loc main_arg1)) (((cfg0.win 4).blk t).view.emb j)
  have r0 : ((((cfg0.win 4).blk t).view.emb j) 0).val = win0_4.index t (0 : Fin 2) * 1024 + (j 0).val := by
    show win0_4.index t (0 : Fin 2) * 1024 + 1 * (j 0).val = _; omega
  have r1 : ((((cfg0.win 4).blk t).view.emb j) 1).val = win0_4.index t (1 : Fin 2) * 1024 + (j 1).val := by
    show win0_4.index t (1 : Fin 2) * 1024 + 1 * (j 1).val = _; omega
  exact entry_eq (m ((c : Thread nD τ).loc main_arg0)) (m ((c : Thread nD τ).loc main_arg1))
    (iblk m c 0 t) (iblk m c 1 t) (iblk m c 2 t) (iblk m c 3 t) j (((cfg0.win 4).blk t).view.emb j)
    (fun k => xblk_apply m c t (ix2 (j 0) k) (ix2 ((((cfg0.win 4).blk t).view.emb j) 0) k) r0 rfl)
    (fun k => yblk_apply m c t (ix2 (j 1) k) (ix2 ((((cfg0.win 4).blk t).view.emb j) 1) k) r1 rfl)
    (colblk_apply m c t (ix2 (j 0) (0 : Fin 1)) ((((cfg0.win 4).blk t).view.emb j) 0) r0)
    (rowblk_apply m c t (ix2 (0 : Fin 1) (j 1)) ((((cfg0.win 4).blk t).view.emb j) 1) r1)

/-! ## The blocks tile the result -/

/-- An entry of the result is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Entry (P, Q) lies in the block of the point whose output block is (P / 1024, Q / 1024), which writes back. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE RESULT ARRAY after the run is the kernel matrix of the two arguments. -/
theorem final (c : Dev nD) : (dats m 0 c).arrAt 4 cfg0.N
    = rbf (m ((c : Thread nD τ).loc main_arg0)) (m ((c : Thread nD τ).loc main_arg1)) :=
  (dats m 0 c).arrAt_eq_of_cover 4 _ (fun t _ => flushed_eq m c t) cover

/-! ## The run, read -/

/-- Every weakly fair execution of the idealized kernel program ends with the result array at the kernel matrix of the
    arguments and the arguments unchanged. -/
theorem run : θ_run defs (onTc (τ := τ) (main (F := Ideal))) ⟨m, fun _ => 0, ρ⟩ fun r => ∀ c : Dev nD,
      r.2.mem ((c : Thread nD τ).loc main_v7) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Blocks

end
-- ==== Proof.lean ====
/-
  The Gaussian kernel matrix K[p, q] = exp(-max(‖x_p‖² + ‖y_q‖² - 2⟨x_p, y_q⟩, 0)) of two families of 8192 points in
  dimension 256, computed by a tiled kernel and by a plain host program: over the extended reals both end with the SAME
  array, the specification's `Cert.Rbf.rbf` of the two arguments.

  The kernel program first forms on the host the column of squared norms of x and the row of squared norms of y, then runs
  an 8 × 8 grid; point (a, b) contracts 1024 points of x with the transpose of 1024 points of y on the matrix unit (after
  a narrowing to bfloat16 that is the identity on the extended reals), adds the column and row entries, subtracts twice the
  contraction, clamps at zero, multiplies by -1 and exponentiates, and writes block (a, b) of the result. The reference
  forms the same two squared norms, ONE 8192 × 8192 contraction, and the same entry-by-entry expression. Entry by entry
  the two are one expression — the same sums over the 256 coordinates, the same three literal words — so no law that
  would need finite inputs is used and the precondition is never opened.

  The modules: Spec (the matrix as one function), RefIsSpec (the reference's stages are it), Body (one grid point's stored
  block at an entry), Norms (the two host-prepared arrays at an index), Blocks (a point writes block (a, b) of the
  matrix; the 64 blocks tile it; the run). Here: the three frames from the generated runs, the empty list of rewrites,
  and the two runs set side by side.
-/
import proofs.«173270_j65481071400600_1_alg».proof.Defs
import proofs.«173270_j65481071400600_1_alg».proof.Proof.Gen.Kernel
import proofs.«173270_j65481071400600_1_alg».proof.Proof.Gen.Kernel.Skeleton
import proofs.«173270_j65481071400600_1_alg».proof.Proof.Gen.Kernel.Launch
import proofs.«173270_j65481071400600_1_alg».proof.Proof.Gen.Kernel.Points
import proofs.«173270_j65481071400600_1_alg».proof.Proof.Gen.Kernel.Frame
import proofs.«173270_j65481071400600_1_alg».proof.Proof.Gen.KernelIdeal
import proofs.«173270_j65481071400600_1_alg».proof.Proof.Gen.KernelIdeal.Skeleton
import proofs.«173270_j65481071400600_1_alg».proof.Proof.Gen.KernelIdeal.Launch
import proofs.«173270_j65481071400600_1_alg».proof.Proof.Gen.KernelIdeal.Points
import proofs.«173270_j65481071400600_1_alg».proof.Proof.Gen.KernelIdeal.Frame
import proofs.«173270_j65481071400600_1_alg».proof.Proof.Gen.ReferenceIdeal
import proofs.«173270_j65481071400600_1_alg».proof.Proof.Gen.Pre_finite_inputs
import proofs.«173270_j65481071400600_1_alg».proof.Proof.Gen.KernelIdeal.Value
import proofs.«173270_j65481071400600_1_alg».proof.Proof.Gen.ReferenceIdeal.Run
import proofs.«173270_j65481071400600_1_alg».proof.Proof.Gen.ReferenceIdeal.Read
import proofs.«173270_j65481071400600_1_alg».proof.Proof.RefIsSpec
import proofs.«173270_j65481071400600_1_alg».proof.Proof.Blocks
import Idealize.ShloMosaic.Adequacy
import Idealize.ShloMosaic.Init

noncomputable section

namespace Cert.Proof

open Idealize.ShloMosaic Idealize.SL.Sem

/-- The kernel program at the word level runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals: nothing to preserve. -/
theorem preserves : Cert.preserves_Kernel_KernelIdeal := trivial

/-- From memories that agree on x and y, the kernel program's result array ends at the kernel matrix of (x, y) (the 64
    written blocks tile it) and the reference's at its last stage, which is the same matrix. -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
